-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16x4096x64 .f32) (main_arg1 : FVec F S64x32 .f32) (main_arg2 : FVec F S32 .f32) (main_arg3 : FVec F S32x1 .f32) (main_arg4 : FVec F S1 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg3
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg4 main_v13 main_v16
-- ==== Kernel.lean ====
abbrev S16x4096x64 : Shape := ⟨3, ![16, 4096, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16384x256 : Shape := ⟨2, ![16384, 256]⟩
abbrev S4x4 : Shape := ⟨2, ![4, 4]⟩
abbrev S_ : Shape := ⟨0, ![]⟩
abbrev S4x1x4x1 : Shape := ⟨4, ![4, 1, 4, 1]⟩
abbrev S1x64x1x32 : Shape := ⟨4, ![1, 64, 1, 32]⟩
abbrev S4x64x4x32 : Shape := ⟨4, ![4, 64, 4, 32]⟩
abbrev S256x128 : Shape := ⟨2, ![256, 128]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1x1 : Shape := ⟨2, ![1, 1]⟩
abbrev S16x1x1 : Shape := ⟨3, ![16, 1, 1]⟩
abbrev S1024x256 : Shape := ⟨2, ![1024, 256]⟩
abbrev S1x1x1 : Shape := ⟨3, ![1, 1, 1]⟩
abbrev S1024x128 : Shape := ⟨2, ![1024, 128]⟩
abbrev S1x1024x128 : Shape := ⟨3, ![1, 1024, 128]⟩
abbrev S16 : Shape := ⟨1, ![16]⟩

abbrev nBuf : Space → Nat
  | .hbm => 31
  | .vmem => 8
  | .smem => 0
  | _ => 0

abbrev bufTy : (tb : Table) → Fin (tcTables nBuf tb) → BufTy
  | .hbm, ⟨0, _⟩ => ⟨S16x4096x64, .f32⟩
  | .hbm, ⟨1, _⟩ => ⟨S64x32, .f32⟩
  | .hbm, ⟨2, _⟩ => ⟨S32, .f32⟩
  | .hbm, ⟨3, _⟩ => ⟨S32x1, .f32⟩
  | .hbm, ⟨4, _⟩ => ⟨S1, .f32⟩
  | .hbm, ⟨5, _⟩ => ⟨S16384x256, .f32⟩
  | .hbm, ⟨6, _⟩ => ⟨S4x4, .i32⟩
  | .hbm, ⟨7, _⟩ => ⟨S4x4, .i32⟩
  | .hbm, ⟨8, _⟩ => ⟨S_, .i32⟩
  | .hbm, ⟨9, _⟩ => ⟨S4x4, .i32⟩
  | .hbm, ⟨10, _⟩ => ⟨S4x4, .i32⟩
  | .hbm, ⟨11, _⟩ => ⟨S4x4, .i1⟩
  | .hbm, ⟨12, _⟩ => ⟨S4x4, .f32⟩
  | .hbm, ⟨13, _⟩ => ⟨S4x1x4x1, .f32⟩
  | .hbm, ⟨14, _⟩ => ⟨S1x64x1x32, .f32⟩
  | .hbm, ⟨15, _⟩ => ⟨S4x64x4x32, .f32⟩
  | .hbm, ⟨16, _⟩ => ⟨S4x64x4x32, .f32⟩
  | .hbm, ⟨17, _⟩ => ⟨S4x64x4x32, .f32⟩
  | .hbm, ⟨18, _⟩ => ⟨S256x128, .f32⟩
  | .hbm, ⟨19, _⟩ => ⟨S1x32, .f32⟩
  | .hbm, ⟨20, _⟩ => ⟨S4x32, .f32⟩
  | .hbm, ⟨21, _⟩ => ⟨S128, .f32⟩
  | .hbm, ⟨22, _⟩ => ⟨S1x128, .f32⟩
  | .hbm, ⟨23, _⟩ => ⟨S32, .f32⟩
  | .hbm, ⟨24, _⟩ => ⟨S1x32, .f32⟩
  | .hbm, ⟨25, _⟩ => ⟨S4x32, .f32⟩
  | .hbm, ⟨26, _⟩ => ⟨S128, .f32⟩
  | .hbm, ⟨27, _⟩ => ⟨S1x128, .f32⟩
  | .hbm, ⟨28, _⟩ => ⟨S1x1, .f32⟩
  | .hbm, ⟨29, _⟩ => ⟨S16x1x1, .f32⟩
  | .hbm, ⟨30, _⟩ => ⟨S16, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1x128, .f32⟩
  | .local _ .vmem, ⟨4, _⟩ => ⟨S1x128, .f32⟩
  | .local _ .vmem, ⟨5, _⟩ => ⟨S1x1, .f32⟩
  | .local _ .vmem, ⟨6, _⟩ => ⟨S1x1x1, .f32⟩
  | .local _ .vmem, ⟨7, _⟩ => ⟨S1x1x1, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x4096x64_S16384x256 : S16x4096x64.ShapeCasts S16384x256
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S64x32_S1x64x1x32_1_3 : S64x32.BroadcastsInDim S1x64x1x32 (![1, 3] : Fin 2 → Fin S1x64x1x32.rank)
  bcast_S4x1x4x1_S4x64x4x32_0_1_2_3 : S4x1x4x1.BroadcastsInDim S4x64x4x32 (![0, 1, 2, 3] : Fin 4 → Fin S4x64x4x32.rank)
  bcast_S1x64x1x32_S4x64x4x32_0_1_2_3 : S1x64x1x32.BroadcastsInDim S4x64x4x32 (![0, 1, 2, 3] : Fin 4 → Fin S4x64x4x32.rank)
  shapeCasts_S4x64x4x32_S256x128 : S4x64x4x32.ShapeCasts S256x128
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  shapeCasts_S128_S1x128 : S128.ShapeCasts S1x128
  shapeCasts_S32x1_S32 : S32x1.ShapeCasts S32
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S1024x128_S1x1024x128 : S1024x128.ShapeCasts S1x1024x128
  reduces_S1x1024x128_S1 : S1x1024x128.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S16x1x1_S16 : S16x1x1.ShapeCasts S16
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S16x1x1.size a
  hwx0_5 : ∀ i : grid0.Coords, EltTy.bits .f32 = 32 ∨ (Rect.block (s := S16x1x1) S1x1x1.size (cc0_transform_5 i) (hinb0_5 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096x64 : Shape := ⟨3, ![16, 4096, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S16x4096x32 : Shape := ⟨3, ![16, 4096, 32]⟩
abbrev S1x1x32 : Shape := ⟨3, ![1, 1, 32]⟩
abbrev S_ : Shape := ⟨0, ![]⟩
abbrev S16x4096x1 : Shape := ⟨3, ![16, 4096, 1]⟩
abbrev S1x1x1 : Shape := ⟨3, ![1, 1, 1]⟩
abbrev S16x1 : Shape := ⟨2, ![16, 1]⟩
abbrev S16 : Shape := ⟨1, ![16]⟩

abbrev nBuf : Space → Nat
  | .hbm => 19
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S64x32, .f32⟩
  | .hbm, ⟨2, _⟩ => ⟨S32, .f32⟩
  | .hbm, ⟨3, _⟩ => ⟨S32x1, .f32⟩
  | .hbm, ⟨4, _⟩ => ⟨S1, .f32⟩
  | .hbm, ⟨5, _⟩ => ⟨S16x4096x32, .f32⟩
  | .hbm, ⟨6, _⟩ => ⟨S1x1x32, .f32⟩
  | .hbm, ⟨7, _⟩ => ⟨S16x4096x32, .f32⟩
  | .hbm, ⟨8, _⟩ => ⟨S16x4096x32, .f32⟩
  | .hbm, ⟨9, _⟩ => ⟨S_, .f32⟩
  | .hbm, ⟨10, _⟩ => ⟨S16x4096x32, .f32⟩
  | .hbm, ⟨11, _⟩ => ⟨S16x4096x32, .f32⟩
  | .hbm, ⟨12, _⟩ => ⟨S16x4096x1, .f32⟩
  | .hbm, ⟨13, _⟩ => ⟨S1x1x1, .f32⟩
  | .hbm, ⟨14, _⟩ => ⟨S16x4096x1, .f32⟩
  | .hbm, ⟨15, _⟩ => ⟨S16x4096x1, .f32⟩
  | .hbm, ⟨16, _⟩ => ⟨S_, .f32⟩
  | .hbm, ⟨17, _⟩ => ⟨S16x1, .f32⟩
  | .hbm, ⟨18, _⟩ => ⟨S16, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S16x4096x32_0_1_2 : S1x1x32.BroadcastsInDim S16x4096x32 (![0, 1, 2] : Fin 3 → Fin S16x4096x32.rank)
  bcast_S_S16x4096x32 : S_.BroadcastsInDim S16x4096x32 (![] : Fin 0 → Fin S16x4096x32.rank)
  bcast_S1_S1x1x1_2 : S1.BroadcastsInDim S1x1x1 (![2] : Fin 1 → Fin S1x1x1.rank)
  bcast_S1x1x1_S16x4096x1_0_1_2 : S1x1x1.BroadcastsInDim S16x4096x1 (![0, 1, 2] : Fin 3 → Fin S16x4096x1.rank)
  reducesTo_S16x4096x1_S16x1_d1 : S16x4096x1.ReducesTo [1] S16x1
  h_S_ : 0 < S_.numel
  shapeCasts_S16x1_S16 : S16x1.ShapeCasts S16
  dot_S16x4096x64_S64x32_S16x4096x32_2_0_01_1_n_n_wf : DotDims.WF S16x4096x64 S64x32 S16x4096x32 [2] [0] [0, 1] [1] [] []
  dot_S16x4096x32_S32x1_S16x4096x1_2_0_01_1_n_n_wf : DotDims.WF S16x4096x32 S32x1 S16x4096x1 [2] [0] [0, 1] [1] [] []

variable [Facts₀]

def dot_S16x4096x64_S64x32_S16x4096x32_2_0_01_1_n_n : DotDims S16x4096x64 S64x32 S16x4096x32 where
  lhsContracting := [2]
  rhsContracting := [0]
  lhsNonContracting := [0, 1]
  rhsNonContracting := [1]
  lhsBatch := []
  rhsBatch := []
  wf := dot_S16x4096x64_S64x32_S16x4096x32_2_0_01_1_n_n_wf
def dot_S16x4096x32_S32x1_S16x4096x1_2_0_01_1_n_n : DotDims S16x4096x32 S32x1 S16x4096x1 where
  lhsContracting := [2]
  rhsContracting := [0]
  lhsNonContracting := [0, 1]
  rhsNonContracting := [1]
  lhsBatch := []
  rhsBatch := []
  wf := dot_S16x4096x32_S32x1_S16x4096x1_2_0_01_1_n_n_wf

class Facts : Prop extends Facts₀ where

variable [Facts]
-- ==== Proof.Spec.lean ====
/-
  The arithmetic both programs share, on the extended reals, with no program in sight.

  The kernel packs four consecutive tokens into one row: a row of 256 numbers is four runs of 64 features, a
  row of 128 lanes four runs of 32 hidden units, and the 4096 tokens of a sample 1024 rows of four. Position
  `b·p + d` of an axis of extent `a·b` is the pair `(p, d)` (`pack`), and a sum over the axis is the double sum
  over the pairs (`sum_pack`).

  Against the block-diagonal weight `δ(p, q)·W1[d, h]` the packed product at row `r`, lane `(q, h)` keeps only the
  run `p = q`: every other term is a product with zero, and on the extended reals `0·x = 0` for EVERY `x`, the
  infinities included (`delta_sum`). So the packed double sum over rows and lanes is the sum over tokens and
  hidden units of the per-token term (`packed_sum_eq`) — a re-indexing and nothing else; no law here needs a finite
  value. The one that does is the bias of the second layer: the reference adds it to each of the 4096 tokens before
  it sums them, the kernel adds `4096·b2` once, and `∑ (a l + c) = ∑ a l + 4096·c` is stated for a real `c`
  (`sum_add_const`).
-/
import Idealize.ShloMosaic.PureOps.Ideal
import Idealize.ShloMosaic.Lib.ValueIdx

noncomputable section

namespace Cert.CriticSpec

open Finset Idealize.ShloMosaic Idealize.ShloMosaic.ValueIdx

/-- Position `b·p + d` of the pair `(p, d)` in an axis of extent `n = a·b` read as `a` runs of `b`. -/
def pack {a b n : ℕ} (hn : a * b = n) (p : Fin a) (d : Fin b) : Fin n := (finProdFinEquiv (p, d)).cast hn

theorem pack_val {a b n : ℕ} (hn : a * b = n) (p : Fin a) (d : Fin b) : (pack hn p d).val = b * p.val + d.val := by
  simp [pack, Nat.add_comm]

/-- A sum over the axis is the double sum over the pairs. -/
theorem sum_pack {M : Type*} [AddCommMonoid M] {a b n : ℕ} (hn : a * b = n) (f : Fin n → M) :
    ∑ k, f k = ∑ p : Fin a, ∑ d : Fin b, f (pack hn p d) := by
  subst hn
  rw [← Equiv.sum_comp finProdFinEquiv f, Fintype.sum_prod_type]
  rfl

theorem h256 : 4 * 64 = 256 := rfl
theorem h128 : 4 * 32 = 128 := rfl
theorem h4096 : 1024 * 4 = 4096 := rfl

/-- Against the identity pattern only the run `p = q` survives: the other products are with zero. -/
theorem delta_sum (f : Fin 4 → Fin 64 → EReal) (g : Fin 64 → EReal) (q : Fin 4) :
    ∑ p : Fin 4, ∑ d : Fin 64, f p d * ((if p = q then (1 : EReal) else 0) * g d) = ∑ d, f q d * g d := by
  rw [Finset.sum_eq_single q]
  · simp
  · intro p _ hp
    simp [hp]
  · intro h
    exact absurd (Finset.mem_univ q) h

/-- The packed rows against the block-diagonal weights, summed over rows and lanes, are the tokens against the
    weights, summed over tokens and hidden units. `X`, `Wb`, `B`, `V` are the packed operands, described by what
    they hold at a pair of coordinates. -/
theorem packed_sum_eq
    (e : Fin 4096 → Fin 64 → EReal) (w1 : Fin 64 → Fin 32 → EReal) (b1 w2 : Fin 32 → EReal)
    (X : Fin 1024 → Fin 256 → EReal) (Wb : Fin 256 → Fin 128 → EReal) (B V : Fin 128 → EReal)
    (hX : ∀ r p d, X r (pack h256 p d) = e (pack h4096 r p) d)
    (hW : ∀ p d q h, Wb (pack h256 p d) (pack h128 q h) = (if p = q then (1 : EReal) else 0) * w1 d h)
    (hB : ∀ q h, B (pack h128 q h) = b1 h) (hV : ∀ q h, V (pack h128 q h) = w2 h) :
    ∑ r : Fin 1024, ∑ j : Fin 128, max ((∑ k : Fin 256, X r k * Wb k j) + B j) 0 * V j
      = ∑ l : Fin 4096, ∑ h : Fin 32, max ((∑ d : Fin 64, e l d * w1 d h) + b1 h) 0 * w2 h := by
  rw [sum_pack h4096 (fun l => ∑ h : Fin 32, max ((∑ d : Fin 64, e l d * w1 d h) + b1 h) 0 * w2 h)]
  refine Finset.sum_congr rfl fun r _ => ?_
  rw [sum_pack h128 (fun j => max ((∑ k : Fin 256, X r k * Wb k j) + B j) 0 * V j)]
  refine Finset.sum_congr rfl fun q _ => Finset.sum_congr rfl fun h _ => ?_
  rw [hB, hV, sum_pack h256 (fun k => X r k * Wb k (pack h128 q h))]
  simp only [hX, hW]
  rw [delta_sum (fun p d => e (pack h4096 r p) d) (fun d => w1 d h) q]

/-- A sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real constant added to each of the 4096 terms comes out of the sum as 4096 times the constant. -/
theorem sum_add_const (a : Fin 4096 → EReal) (c : ℝ) :
    ∑ l, (a l + (c : EReal)) = (∑ l, a l) + ((4096 : ℝ) : EReal) * (c : EReal) := by
  rw [Finset.sum_add_distrib, ← EReal.coe_mul, ← coe_sum]
  simp

/-- The word `0x45800000` is the float 4096: the number of tokens of a sample. -/
theorem ofBits_4096 : Ideal.ofBits .f32 0x45800000#32 = ((4096 : ℝ) : EReal) := by
  simp [Ideal.ofBits, Ideal.ieee, -EReal.coe_mul]; norm_num

/-- THE VALUE of sample `b`: over its 4096 tokens and the 32 hidden units, the hidden activation
    `max (∑ d, e[b, l, d] · W1[d, h] + b1[h], 0)` times `W2[h, 0]`, summed, plus the second bias once per token. -/
def value (e : (⟨3, ![16, 4096, 64]⟩ : Shape).Idx → EReal) (w1 : (⟨2, ![64, 32]⟩ : Shape).Idx → EReal)
    (b1 : (⟨1, ![32]⟩ : Shape).Idx → EReal) (w2 : (⟨2, ![32, 1]⟩ : Shape).Idx → EReal) (b2 : (⟨1, ![1]⟩ : Shape).Idx → EReal)
    (b : Fin 16) : EReal :=
  (∑ l : Fin 4096, ∑ h : Fin 32, max ((∑ d : Fin 64, e (ix3 b l d) * w1 (ix2 d h)) + b1 (ix1 h)) 0 * w2 (ix2 h (0 : Fin 1)))
    + Ideal.ofBits .f32 0x45800000#32 * b2 (ix1 (0 : Fin 1))

end Cert.CriticSpec

end
-- ==== Proof.Body.lean ====
/-
  What the kernel body stores, as one number: for a block `x0` of 1024 packed rows, the packed weights `x1`,
  the two lane vectors `x2`, `x3` and the [1, 1] bias `x4`, the single entry of the [1, 1, 1] payload is

      ∑ r < 1024, ∑ j < 128,  max (∑ k < 256, x0[r, k] · x1[k, j] + x2[0, j], 0) · x3[0, j]   +   4096 · x4[0, 0].

  The matmul into a zero accumulator is the plain sum over the contracted axis; the reduction of the [1, 1024, 128]
  product over its two long axes into [1] is the sum over every index, which is the double sum over rows and lanes;
  the shape casts around it add and drop unit axes.
-/
import proofs.«114112_g33174327394913_cont_8to1_b_594_5_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx

/-! ## The packed product at a row and a lane -/

theorem lhs_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The matmul into the zero accumulator, at row `r` and lane `j`: the sum over the 256 packed columns. -/
theorem matmul_at (x0 : FVec Ideal S1024x256 .f32) (x1 : FVec Ideal S256x128 .f32) (r : Fin 1024) (j : Fin 128) :
    matmul dot_S1024x256_S256x128_S1024x128_1_0_0_1_n_n none x0 x1 (constant S1024x128 .f32 0x00000000#32) (ix2 r j)
      = ∑ k : Fin 256, x0 (ix2 r k) * x1 (ix2 k j) := by
  simp only [matmul]
  rw [Ideal.matmul_constant_zero_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 r j) ((ValueIdx.contrEquiv1 dot_S1024x256_S256x128_S1024x128_1_0_0_1_n_n 256 rfl rfl).symm k) = ix2 r k := funext fun a => Fin.ext (by
    match a with
    | ⟨0, _⟩ => exact lhs_0 _ _
    | ⟨1, _⟩ => exact (lhs_1 _ _).trans hk)
  have er : dot_S1024x256_S256x128_S1024x128_1_0_0_1_n_n.rhsIdx (ix2 r j) ((ValueIdx.contrEquiv1 dot_S1024x256_S256x128_S1024x128_1_0_0_1_n_n 256 rfl rfl).symm k) = ix2 k j := funext fun a => Fin.ext (by
    match a with
    | ⟨0, _⟩ => exact (rhs_0 _ _).trans hk
    | ⟨1, _⟩ => exact rhs_1 _ _)
  rw [el, er]

/-! ## A sum over a [1, a, b] index set -/

/-- An index of a [1, a, b] array is its two long coordinates … -/
def idxEquivU {n1 n2 : Nat} : (⟨3, ![1, n1, n2]⟩ : Shape).Idx ≃ Fin n1 × Fin n2 where
  toFun i := (i 1, i 2)
  invFun p := ix3 (0 : Fin 1) p.1 p.2
  left_inv i := by
    funext a
    match a with
    | ⟨0, _⟩ => exact Fin.ext (by have h : (i 0).val < 1 := (i 0).isLt; show 0 = (i 0).val; omega)
    | ⟨1, _⟩ => rfl
    | ⟨2, _⟩ => rfl
  right_inv _ := rfl
/-- … so a sum over it is the double sum over them. -/
theorem sum_idxU {M : Type*} [AddCommMonoid M] {n1 n2 : Nat} (f : (⟨3, ![1, n1, n2]⟩ : Shape).Idx → M) :
    ∑ i, f i = ∑ a : Fin n1, ∑ b : Fin n2, f (ix3 (0 : Fin 1) a b) := by
  rw [← Equiv.sum_comp (idxEquivU (n1 := n1) (n2 := n2)).symm f, Fintype.sum_prod_type]
  rfl

/-! ## The payload -/

/-- One row-and-lane term of the body: the hidden activation times its output weight. -/
def term (x0 : FVec Ideal S1024x256 .f32) (x1 : FVec Ideal S256x128 .f32) (x2 x3 : FVec Ideal S1x128 .f32) (r : Fin 1024) (j : Fin 128) : EReal :=
  max ((∑ k : Fin 256, x0 (ix2 r k) * x1 (ix2 k j)) + x2 (ix2 (0 : Fin 1) j)) 0 * x3 (ix2 (0 : Fin 1) j)

/-- The product the body reduces, at a row and a lane. -/
theorem prod_at (x0 : FVec Ideal S1024x256 .f32) (x1 : FVec Ideal S256x128 .f32) (x2 x3 : FVec Ideal S1x128 .f32) (r : Fin 1024) (j : Fin 128) :
    mulf (maximumf (addf (matmul dot_S1024x256_S256x128_S1024x128_1_0_0_1_n_n none (shapeCast S1024x256 x0 shapeCasts_S1024x256_S1024x256)
        (shapeCast S256x128 x1 shapeCasts_S256x128_S256x128) (constant S1024x128 .f32 0x00000000#32))
          (broadcastTo S1024x128 (shapeCast S1x128 x2 shapeCasts_S1x128_S1x128) broadcasts_S1x128_S1024x128))
        (broadcast S1024x128 (Scalar.ofBits .f32 0x00000000#32)))
      (broadcastTo S1024x128 (shapeCast S1x128 x3 shapeCasts_S1x128_S1x128) broadcasts_S1x128_S1024x128) (ix2 r j)
      = term x0 x1 x2 x3 r j := by
  rw [shapeCast_self, shapeCast_self, shapeCast_self, shapeCast_self, mulf_apply, maximumf_apply, addf_apply, matmul_at, broadcast_apply,
    broadcastTo_1b_ab_apply, broadcastTo_1b_ab_apply]
  show max (_ + _) (Ideal.ofBits .f32 0x00000000#32) * _ = _
  rw [Ideal.ofBits_zero_f32]
  rfl

/-- The body's one stored number. -/
theorem pay_apply (x0 : FVec Ideal S1024x256 .f32) (x1 : FVec Ideal S256x128 .f32) (x2 x3 : FVec Ideal S1x128 .f32) (x4 : FVec Ideal S1x1 .f32)
    (y : S1x1x1.Idx) :
    k0_pay1 (F := Ideal) x0 x1 x2 x3 x4 y
      = (∑ r : Fin 1024, ∑ j : Fin 128, term x0 x1 x2 x3 r j) + Ideal.ofBits .f32 0x45800000#32 * x4 (ix2 (0 : Fin 1) (0 : Fin 1)) := by
  unfold k0_pay1
  rw [addf_apply]
  refine congrArg₂ (· + ·) ?_ ?_
  · rw [broadcast_apply]
    show shapeCast S1x1x1 _ shapeCasts_S1_S1x1x1 (ix3 (0 : Fin 1) (0 : Fin 1) (0 : Fin 1)) = _
    refine (shapeCast_apply _ shapeCasts_S1_S1x1x1 (ix3 (0 : Fin 1) (0 : Fin 1) (0 : Fin 1)) (ix1 (0 : Fin 1))
      (by rw [Shape.rowMajor_val_one, Shape.rowMajor_val_three]; rfl)).trans ?_
    refine (Ideal.multiReduction_add_total _ 0x00000000#32 reduces_S1x1024x128_S1 (by decide) (.inl rfl) rfl (ix1 (0 : Fin 1))).trans ?_
    rw [sum_idxU]
    refine Finset.sum_congr rfl fun r _ => Finset.sum_congr rfl fun j _ => ?_
    rw [shapeCast_ab_1ab_apply]
    exact prod_at x0 x1 x2 x3 r j
  · obtain rfl : y = ix3 (0 : Fin 1) (0 : Fin 1) (0 : Fin 1) := by
      funext a
      match a with
      | ⟨0, _⟩ => exact Fin.ext (by have h : (y 0).val < 1 := (y 0).isLt; show (y 0).val = 0; omega)
      | ⟨1, _⟩ => exact Fin.ext (by have h : (y 1).val < 1 := (y 1).isLt; show (y 1).val = 0; omega)
      | ⟨2, _⟩ => exact Fin.ext (by have h : (y 2).val < 1 := (y 2).isLt; show (y 2).val = 0; omega)
    refine (shapeCast_apply _ shapeCasts_S1x1_S1x1x1 (ix3 (0 : Fin 1) (0 : Fin 1) (0 : Fin 1)) (ix2 (0 : Fin 1) (0 : Fin 1))
      (by rw [Shape.rowMajor_val_two, Shape.rowMajor_val_three]; rfl)).trans ?_
    rw [mulf_apply, broadcast_apply, shapeCast_self]
    rfl

end Cert.KernelIdeal.Body

end
-- ==== Proof.Entry.lean ====
/-
  What the region finds in its five operand arrays, read at an index, in terms of @main's arguments (at the
  extended reals).

  * the rows: the [16, 4096, 64] embeddings re-read row-major as [16384, 256], so that row `R`, column `k` is
    the entry `(b, l, d)` with the same row-major position;
  * the block-diagonal weights: the Kronecker product of the 4×4 identity pattern with `W1` — the product of
    two broadcasts to [4, 64, 4, 32], re-read as [256, 128] —, so that row `64p + d`, column `32q + h` is
    `δ(p, q) · W1[d, h]`; the identity pattern is the comparison of two iotas turned into a float, `1` on the
    diagonal and `0` off it;
  * the two lane vectors: `b1` and the one column of `W2`, each tiled four times, lane `32q + h` holding entry `h`;
  * the second bias, as a [1, 1] array.
-/
import proofs.«114112_g33174327394913_cont_8to1_b_594_5_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-! ## The rows -/

theorem rows_eq (c : Dev nD) : (V m c main_v0 : S16384x256.Idx → EReal)
    = shapeCast S16384x256 (m ((c : Thread nD τ).loc main_arg0)) shapeCasts_S16x4096x64_S16384x256 := by
  dsimp only [Gen.V, Gen.V0]
  simp only [Gen.hostOps0, Gen.hostOps0_1, Gen.hostOps0_2, List.flatten_cons, List.flatten_nil, List.append_nil, List.cons_append,
    List.nil_append]
  after_results
  rfl

/-- Row `R`, column `k` of the re-read embeddings is the entry at the same row-major position. -/
theorem rows_apply (c : Dev nD) (R : Fin 16384) (k : Fin 256) (b : Fin 16) (l : Fin 4096) (d : Fin 64)
    (h : (b.val * 4096 + l.val) * 64 + d.val = R.val * 256 + k.val) :
    (V m c main_v0 : S16384x256.Idx → EReal) (ix2 R k) = (m ((c : Thread nD τ).loc main_arg0) : S16x4096x64.Idx → EReal) (ix3 b l d) := by
  rw [rows_eq]
  exact shapeCast_apply _ shapeCasts_S16x4096x64_S16384x256 (ix2 R k) (ix3 b l d)
    (by rw [Shape.rowMajor_val_three, Shape.rowMajor_val_two]; exact h)

/-! ## The identity pattern -/

/-- The 4×4 identity pattern as the host builds it: two iotas compared, the bit turned into a float. -/
def eye : S4x4.Idx → EReal :=
  uitofp (F := Ideal) .f32 (cmpi .eq (addi (iotaInDim S4x4 32 0) (broadcastInDim S4x4 ![] bcast_S_S4x4 (constantI S_ 32 0#32)))
    (iotaInDim S4x4 32 1))

theorem eye_bit : ∀ p q : Fin 4, IntOp.cmpi .eq (IntOp.addi (BitVec.ofNat 32 p.val) 0#32) (BitVec.ofNat 32 q.val)
    = if p = q then 1#1 else 0#1 := by decide

/-- One on the diagonal, zero off it. -/
theorem eye_apply (p q : Fin 4) : eye (ix2 p q) = if p = q then (1 : EReal) else 0 := by
  show (((IntOp.cmpi .eq (IntOp.addi (BitVec.ofNat 32 p.val) 0#32) (BitVec.ofNat 32 q.val)).toNat : ℝ) : EReal) = _
  rw [eye_bit]
  by_cases hpq : p = q
  · rw [if_pos hpq, if_pos hpq]; norm_num
  · rw [if_neg hpq, if_neg hpq]; norm_num

/-! ## The block-diagonal weights -/

theorem weights_eq (c : Dev nD) : (V m c main_v7 : S256x128.Idx → EReal)
    = shapeCast S256x128 (mulf (F := Ideal) (φ := .f32)
        (broadcastInDim S4x64x4x32 ![0, 1, 2, 3] bcast_S4x1x4x1_S4x64x4x32_0_1_2_3
          (broadcastInDim S4x1x4x1 ![0, 2] bcast_S4x4_S4x1x4x1_0_2 eye))
        (broadcastInDim S4x64x4x32 ![0, 1, 2, 3] bcast_S1x64x1x32_S4x64x4x32_0_1_2_3
          (broadcastInDim S1x64x1x32 ![1, 3] bcast_S64x32_S1x64x1x32_1_3 (m ((c : Thread nD τ).loc main_arg1)))))
        shapeCasts_S4x64x4x32_S256x128 := by
  dsimp only [Gen.V, Gen.V0]
  simp only [Gen.hostOps0, Gen.hostOps0_1, Gen.hostOps0_2, List.flatten_cons, List.flatten_nil, List.append_nil, List.cons_append,
    List.nil_append]
  after_results
  rfl

/-- Row `64p + d`, column `32q + h` of the packed weights is `δ(p, q) · W1[d, h]`. -/
theorem weights_apply (c : Dev nD) (p : Fin 4) (d : Fin 64) (q : Fin 4) (h : Fin 32) (k : Fin 256) (j : Fin 128)
    (hk : k.val = 64 * p.val + d.val) (hj : j.val = 32 * q.val + h.val) :
    (V m c main_v7 : S256x128.Idx → EReal) (ix2 k j)
      = (if p = q then (1 : EReal) else 0) * (m ((c : Thread nD τ).loc main_arg1) : S64x32.Idx → EReal) (ix2 d h) := by
  rw [weights_eq]
  refine (shapeCast_apply _ shapeCasts_S4x64x4x32_S256x128 (ix2 k j) (ix4 p d q h)
    (by rw [Shape.rowMajor_val_four, Shape.rowMajor_val_two]
        show ((p.val * 64 + d.val) * 4 + q.val) * 32 + h.val = k.val * 128 + j.val
        omega)).trans ?_
  rw [mulf_apply]
  refine congrArg₂ (· * ·) ?_ ?_
  · refine (broadcastInDim_apply _ bcast_S4x1x4x1_S4x64x4x32_0_1_2_3 _ (ix4 p d q h) (ix4 p (0 : Fin 1) q (0 : Fin 1)) (fun a => match a with
      | ⟨0, _⟩ => by show p.val = if (4 : Nat) = 1 then 0 else p.val; rw [if_neg (by decide)]
      | ⟨1, _⟩ => by show 0 = if (1 : Nat) = 1 then 0 else d.val; rw [if_pos rfl]
      | ⟨2, _⟩ => by show q.val = if (4 : Nat) = 1 then 0 else q.val; rw [if_neg (by decide)]
      | ⟨3, _⟩ => by show 0 = if (1 : Nat) = 1 then 0 else h.val; rw [if_pos rfl])).trans ?_
    refine (broadcastInDim_apply _ bcast_S4x4_S4x1x4x1_0_2 eye (ix4 p (0 : Fin 1) q (0 : Fin 1)) (ix2 p q) (fun a => match a with
      | ⟨0, _⟩ => by show p.val = if (4 : Nat) = 1 then 0 else p.val; rw [if_neg (by decide)]
      | ⟨1, _⟩ => by show q.val = if (4 : Nat) = 1 then 0 else q.val; rw [if_neg (by decide)])).trans ?_
    exact eye_apply p q
  · refine (broadcastInDim_apply _ bcast_S1x64x1x32_S4x64x4x32_0_1_2_3 _ (ix4 p d q h) (ix4 (0 : Fin 1) d (0 : Fin 1) h) (fun a => match a with
      | ⟨0, _⟩ => by show 0 = if (1 : Nat) = 1 then 0 else p.val; rw [if_pos rfl]
      | ⟨1, _⟩ => by show d.val = if (64 : Nat) = 1 then 0 else d.val; rw [if_neg (by decide)]
      | ⟨2, _⟩ => by show 0 = if (1 : Nat) = 1 then 0 else q.val; rw [if_pos rfl]
      | ⟨3, _⟩ => by show h.val = if (32 : Nat) = 1 then 0 else h.val; rw [if_neg (by decide)])).trans ?_
    exact broadcastInDim_apply _ bcast_S64x32_S1x64x1x32_1_3 _ (ix4 (0 : Fin 1) d (0 : Fin 1) h) (ix2 d h) (fun a => match a with
      | ⟨0, _⟩ => by show d.val = if (64 : Nat) = 1 then 0 else d.val; rw [if_neg (by decide)]
      | ⟨1, _⟩ => by show h.val = if (32 : Nat) = 1 then 0 else h.val; rw [if_neg (by decide)])

/-! ## The two lane vectors -/

/-- A vector of 32 entries tiled four times along the lanes: lane `32q + h` holds entry `h`. -/
theorem tile_apply (x : S32.Idx → EReal) (q : Fin 4) (h : Fin 32) (j : Fin 128) (hj : j.val = 32 * q.val + h.val) :
    shapeCast S1x128 (shapeCast S128 (broadcastInDim S4x32 ![0, 1] bcast_S1x32_S4x32_0_1 (shapeCast S1x32 x shapeCasts_S32_S1x32))
      shapeCasts_S4x32_S128) shapeCasts_S128_S1x128 (ix2 (0 : Fin 1) j) = x (ix1 h) := by
  refine (shapeCast_apply _ shapeCasts_S128_S1x128 (ix2 (0 : Fin 1) j) (ix1 j)
    (by rw [Shape.rowMajor_val_one, Shape.rowMajor_val_two]; show j.val = 0 * 128 + j.val; omega)).trans ?_
  refine (shapeCast_apply _ shapeCasts_S4x32_S128 (ix1 j) (ix2 q h)
    (by rw [Shape.rowMajor_val_one, Shape.rowMajor_val_two]; show q.val * 32 + h.val = j.val; omega)).trans ?_
  refine (broadcastInDim_apply _ bcast_S1x32_S4x32_0_1 _ (ix2 q h) (ix2 (0 : Fin 1) h) (fun a => match a with
    | ⟨0, _⟩ => by show 0 = if (1 : Nat) = 1 then 0 else q.val; rw [if_pos rfl]
    | ⟨1, _⟩ => by show h.val = if (32 : Nat) = 1 then 0 else h.val; rw [if_neg (by decide)])).trans ?_
  exact shapeCast_apply _ shapeCasts_S32_S1x32 (ix2 (0 : Fin 1) h) (ix1 h)
    (by rw [Shape.rowMajor_val_one, Shape.rowMajor_val_two]; show h.val = 0 * 32 + h.val; omega)

theorem bias1_eq (c : Dev nD) : (V m c main_v11 : S1x128.Idx → EReal)
    = shapeCast S1x128 (shapeCast S128 (broadcastInDim S4x32 ![0, 1] bcast_S1x32_S4x32_0_1
        (shapeCast S1x32 (m ((c : Thread nD τ).loc main_arg2)) shapeCasts_S32_S1x32)) shapeCasts_S4x32_S128) shapeCasts_S128_S1x128 := by
  dsimp only [Gen.V, Gen.V0]
  simp only [Gen.hostOps0, Gen.hostOps0_1, Gen.hostOps0_2, List.flatten_cons, List.flatten_nil, List.append_nil, List.cons_append,
    List.nil_append]
  after_results
  rfl

/-- Lane `32q + h` of the tiled first bias is `b1[h]`. -/
theorem bias1_apply (c : Dev nD) (q : Fin 4) (h : Fin 32) (j : Fin 128) (hj : j.val = 32 * q.val + h.val) :
    (V m c main_v11 : S1x128.Idx → EReal) (ix2 (0 : Fin 1) j) = (m ((c : Thread nD τ).loc main_arg2) : S32.Idx → EReal) (ix1 h) := by
  rw [bias1_eq]
  exact tile_apply _ q h j hj

theorem out_weights_eq (c : Dev nD) : (V m c main_v16 : S1x128.Idx → EReal)
    = shapeCast S1x128 (shapeCast S128 (broadcastInDim S4x32 ![0, 1] bcast_S1x32_S4x32_0_1
        (shapeCast S1x32 (shapeCast S32 (m ((c : Thread nD τ).loc main_arg3)) shapeCasts_S32x1_S32) shapeCasts_S32_S1x32))
        shapeCasts_S4x32_S128) shapeCasts_S128_S1x128 := by
  dsimp only [Gen.V, Gen.V0]
  simp only [Gen.hostOps0, Gen.hostOps0_1, Gen.hostOps0_2, List.flatten_cons, List.flatten_nil, List.append_nil, List.cons_append,
    List.nil_append]
  after_results
  rfl

/-- Lane `32q + h` of the tiled output weights is `W2[h, 0]`. -/
theorem out_weights_apply (c : Dev nD) (q : Fin 4) (h : Fin 32) (j : Fin 128) (hj : j.val = 32 * q.val + h.val) :
    (V m c main_v16 : S1x128.Idx → EReal) (ix2 (0 : Fin 1) j) = (m ((c : Thread nD τ).loc main_arg3) : S32x1.Idx → EReal) (ix2 h (0 : Fin 1)) := by
  rw [out_weights_eq]
  refine (tile_apply _ q h j hj).trans ?_
  exact shapeCast_apply _ shapeCasts_S32x1_S32 (ix1 h) (ix2 h (0 : Fin 1))
    (by rw [Shape.rowMajor_val_one, Shape.rowMajor_val_two]; show h.val * 1 + 0 = h.val; omega)

/-! ## The second bias -/

theorem bias2_eq (c : Dev nD) : (V m c main_v17 : S1x1.Idx → EReal)
    = shapeCast S1x1 (m ((c : Thread nD τ).loc main_arg4)) shapeCasts_S1_S1x1 := by
  dsimp only [Gen.V, Gen.V0]
  simp only [Gen.hostOps0, Gen.hostOps0_1, Gen.hostOps0_2, List.flatten_cons, List.flatten_nil, List.append_nil, List.cons_append,
    List.nil_append]
  after_results
  rfl

theorem bias2_apply (c : Dev nD) :
    (V m c main_v17 : S1x1.Idx → EReal) (ix2 (0 : Fin 1) (0 : Fin 1)) = (m ((c : Thread nD τ).loc main_arg4) : S1.Idx → EReal) (ix1 (0 : Fin 1)) := by
  rw [bias2_eq]
  exact shapeCast_apply _ shapeCasts_S1_S1x1 (ix2 (0 : Fin 1) (0 : Fin 1)) (ix1 (0 : Fin 1))
    (by rw [Shape.rowMajor_val_one, Shape.rowMajor_val_two]; rfl)

end Cert.KernelIdeal.Entry

end
-- ==== Proof.Result.lean ====
/-
  The kernel's result array, as one function of @main's arguments.

  Grid point `t` reads rows `1024t … 1024t + 1023` of the re-read embeddings — the 4096 tokens of sample `t`, four
  to a row — and the whole of the other four operands, and writes one number into entry `(t, 0, 0)` of the
  [16, 1, 1] output. By the body's arithmetic that number is the packed double sum over rows and lanes plus
  `4096 · b2`; by the packing identity it is the value of sample `t`. The sixteen blocks tile the output, so the
  array ends holding the sixteen values, and the reshape after the region hands them on as a vector of 16.
-/
import proofs.«114112_g33174327394913_cont_8to1_b_594_5_alg».proof.Proof.Gen.KernelIdeal.Frame
import proofs.«114112_g33174327394913_cont_8to1_b_594_5_alg».proof.Proof.Spec
import proofs.«114112_g33174327394913_cont_8to1_b_594_5_alg».proof.Proof.Body
import proofs.«114112_g33174327394913_cont_8to1_b_594_5_alg».proof.Proof.Entry
import Idealize.ShloMosaic.Lib.Pipeline.Value
import Idealize.ShloMosaic.Lib.StableHlo.Run
import Idealize.ShloMosaic.Lib.ValueIdx

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)
open Cert.CriticSpec

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The value of sample `b` of the arguments core `c` was launched with. -/
def sample (c : Dev nD) (b : Fin 16) : EReal :=
  value (m ((c : Thread nD τ).loc main_arg0)) (m ((c : Thread nD τ).loc main_arg1)) (m ((c : Thread nD τ).loc main_arg2))
    (m ((c : Thread nD τ).loc main_arg3)) (m ((c : Thread nD τ).loc main_arg4)) b

/-- What the [16, 1, 1] output array ends holding: entry `(b, 0, 0)` is sample `b`'s value. -/
def G (c : Dev nD) : S16x1x1.Idx → EReal := fun i => sample m c ⟨(i 0).val, (i 0).isLt⟩

/-! ## The blocks a point reads -/

/-- The printed index maps over the grid: the rows and the output move with the point, the rest stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem lt16 (t : Fin cfg0.N) : t.val < 16 := lt_of_lt_of_eq t.isLt N_0

abbrev rowsB (c : Dev nD) (t : Fin cfg0.N) : FVec Ideal S1024x256 .f32 := iblk m c 0 t
abbrev weightsB (c : Dev nD) (t : Fin cfg0.N) : FVec Ideal S256x128 .f32 := iblk m c 1 t
abbrev bias1B (c : Dev nD) (t : Fin cfg0.N) : FVec Ideal S1x128 .f32 := iblk m c 2 t
abbrev outwB (c : Dev nD) (t : Fin cfg0.N) : FVec Ideal S1x128 .f32 := iblk m c 3 t
abbrev bias2B (c : Dev nD) (t : Fin cfg0.N) : FVec Ideal S1x1 .f32 := iblk m c 4 t

/-- Row `r` of point `t`'s block of rows is row `1024t + r` of the array. -/
theorem rows_blk (c : Dev nD) (t : Fin cfg0.N) (r : Fin 1024) (k : Fin 256) :
    rowsB m c t (ix2 r k) = (V m c main_v0 : S16384x256.Idx → EReal) (ix2 ⟨t.val * 1024 + r.val, by have := lt16 t; omega⟩ k) := by
  obtain ⟨e0, e1, -⟩ := idx_facts t
  show (V m c main_v0 : S16384x256.Idx → EReal) (((cfg0.win 0).blk t).view.emb (ix2 r k)) = _
  refine congrArg (V m c main_v0 : S16384x256.Idx → EReal) ?_
  funext a; apply Fin.ext
  match a with
  | ⟨0, _⟩ => show win0_0.index t (0 : Fin 2) * 1024 + 1 * r.val = t.val * 1024 + r.val; omega
  | ⟨1, _⟩ => show win0_0.index t (1 : Fin 2) * 256 + 1 * k.val = k.val; omega

theorem weights_blk (c : Dev nD) (t : Fin cfg0.N) (k : Fin 256) (j : Fin 128) :
    weightsB m c t (ix2 k j) = (V m c main_v7 : S256x128.Idx → EReal) (ix2 k j) := by
  obtain ⟨-, -, e0, e1, -⟩ := idx_facts t
  show (V m c main_v7 : S256x128.Idx → EReal) (((cfg0.win 1).blk t).view.emb (ix2 k j)) = _
  refine congrArg (V m c main_v7 : S256x128.Idx → EReal) ?_
  funext a; apply Fin.ext
  match a with
  | ⟨0, _⟩ => show win0_1.index t (0 : Fin 2) * 256 + 1 * k.val = k.val; omega
  | ⟨1, _⟩ => show win0_1.index t (1 : Fin 2) * 128 + 1 * j.val = j.val; omega

theorem bias1_blk (c : Dev nD) (t : Fin cfg0.N) (j : Fin 128) :
    bias1B m c t (ix2 (0 : Fin 1) j) = (V m c main_v11 : S1x128.Idx → EReal) (ix2 (0 : Fin 1) j) := by
  obtain ⟨-, -, -, -, e0, e1, -⟩ := idx_facts t
  show (V m c main_v11 : S1x128.Idx → EReal) (((cfg0.win 2).blk t).view.emb (ix2 (0 : Fin 1) j)) = _
  refine congrArg (V m c main_v11 : S1x128.Idx → EReal) ?_
  funext a; apply Fin.ext
  match a with
  | ⟨0, _⟩ => show win0_2.index t (0 : Fin 2) * 1 + 1 * 0 = 0; omega
  | ⟨1, _⟩ => show win0_2.index t (1 : Fin 2) * 128 + 1 * j.val = j.val; omega

theorem outw_blk (c : Dev nD) (t : Fin cfg0.N) (j : Fin 128) :
    outwB m c t (ix2 (0 : Fin 1) j) = (V m c main_v16 : S1x128.Idx → EReal) (ix2 (0 : Fin 1) j) := by
  obtain ⟨-, -, -, -, -, -, e0, e1, -⟩ := idx_facts t
  show (V m c main_v16 : S1x128.Idx → EReal) (((cfg0.win 3).blk t).view.emb (ix2 (0 : Fin 1) j)) = _
  refine congrArg (V m c main_v16 : S1x128.Idx → EReal) ?_
  funext a; apply Fin.ext
  match a with
  | ⟨0, _⟩ => show win0_3.index t (0 : Fin 2) * 1 + 1 * 0 = 0; omega
  | ⟨1, _⟩ => show win0_3.index t (1 : Fin 2) * 128 + 1 * j.val = j.val; omega

theorem bias2_blk (c : Dev nD) (t : Fin cfg0.N) :
    bias2B m c t (ix2 (0 : Fin 1) (0 : Fin 1)) = (V m c main_v17 : S1x1.Idx → EReal) (ix2 (0 : Fin 1) (0 : Fin 1)) := by
  obtain ⟨-, -, -, -, -, -, -, -, e0, e1, -⟩ := idx_facts t
  show (V m c main_v17 : S1x1.Idx → EReal) (((cfg0.win 4).blk t).view.emb (ix2 (0 : Fin 1) (0 : Fin 1))) = _
  refine congrArg (V m c main_v17 : S1x1.Idx → EReal) ?_
  funext a; apply Fin.ext
  match a with
  | ⟨0, _⟩ => show win0_4.index t (0 : Fin 2) * 1 + 1 * 0 = 0; omega
  | ⟨1, _⟩ => show win0_4.index t (1 : Fin 2) * 1 + 1 * 0 = 0; omega

/-! ## What a point writes -/

/-- The body's number at point `t` is the value of sample `t`. -/
theorem point_value (c : Dev nD) (t : Fin cfg0.N) (y : S1x1x1.Idx) :
    k0_pay1 (F := Ideal) (rowsB m c t) (weightsB m c t) (bias1B m c t) (outwB m c t) (bias2B m c t) y = sample m c ⟨t.val, lt16 t⟩ := by
  rw [Body.pay_apply]
  unfold sample value
  refine congrArg₂ (· + ·) ?_ ?_
  · refine packed_sum_eq
      (fun l d => (m ((c : Thread nD τ).loc main_arg0) : S16x4096x64.Idx → EReal) (ix3 (⟨t.val, lt16 t⟩ : Fin 16) l d))
      (fun d h => (m ((c : Thread nD τ).loc main_arg1) : S64x32.Idx → EReal) (ix2 d h))
      (fun h => (m ((c : Thread nD τ).loc main_arg2) : S32.Idx → EReal) (ix1 h))
      (fun h => (m ((c : Thread nD τ).loc main_arg3) : S32x1.Idx → EReal) (ix2 h (0 : Fin 1)))
      (fun r k => rowsB m c t (ix2 r k)) (fun k j => weightsB m c t (ix2 k j))
      (fun j => bias1B m c t (ix2 (0 : Fin 1) j)) (fun j => outwB m c t (ix2 (0 : Fin 1) j)) ?_ ?_ ?_ ?_
    · intro r p d
      show rowsB m c t (ix2 r (pack h256 p d)) = _
      rw [rows_blk]
      exact Entry.rows_apply m c _ _ ⟨t.val, lt16 t⟩ (pack h4096 r p) d
        (by show (t.val * 4096 + (pack h4096 r p).val) * 64 + d.val = (t.val * 1024 + r.val) * 256 + (pack h256 p d).val
            rw [pack_val, pack_val]; omega)
    · intro p d q h
      show weightsB m c t (ix2 (pack h256 p d) (pack h128 q h)) = _
      rw [weights_blk]
      exact Entry.weights_apply m c p d q h _ _ (pack_val h256 p d) (pack_val h128 q h)
    · intro q h
      show bias1B m c t (ix2 (0 : Fin 1) (pack h128 q h)) = _
      rw [bias1_blk]
      exact Entry.bias1_apply m c q h _ (pack_val h128 q h)
    · intro q h
      show outwB m c t (ix2 (0 : Fin 1) (pack h128 q h)) = _
      rw [outw_blk]
      exact Entry.out_weights_apply m c q h _ (pack_val h128 q h)
  · rw [bias2_blk, Entry.bias2_apply]

/-- WHAT POINT `t` WRITES BACK is block `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz3]
  simp only [View.ld_unit_zero (S := S1024x256) hz2, View.ld_unit_zero (S := S256x128) hz2, View.ld_unit_zero (S := S1x128) hz2,
    View.ld_unit_zero (S := S1x1) hz2]
  obtain ⟨-, -, -, -, -, -, -, -, -, -, e0, -, -⟩ := idx_facts t
  funext y
  show k0_pay1 (F := Ideal) (rowsB m c t) (weightsB m c t) (bias1B m c t) (outwB m c t) (bias2B m c t) y
    = G m c (((cfg0.win 5).blk t).view.emb y)
  rw [point_value]
  unfold G
  refine congrArg (sample m c) (Fin.ext ?_)
  show t.val = win0_5.index t (0 : Fin 3) * 1 + 1 * (y 0).val
  have hy : (y 0).val < 1 := (y 0).isLt
  omega

/-! ## The blocks tile the output -/

theorem mem_blk (t : Fin cfg0.N) (i : S16x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v18).slice (win0_5.rect t)).set ↔ _
  rw [View.set_slice_whole, Rect.mem_set_unit]
  exact Iff.rfl

/-- Entry `(b, 0, 0)` is in point `b`'s block. -/
theorem cover (i : S16x1x1.Idx) : ∃ t : Fin cfg0.N, (cfg0.win 5).flush t = true ∧ i ∈ ((cfg0.win 5).blk t).view.set := by
  have h0 : (i 0).val < 16 := (i 0).isLt
  have h1 : (i 1).val < 1 := (i 1).isLt
  have h2 : (i 2).val < 1 := (i 2).isLt
  obtain ⟨t, ht⟩ : ∃ t : Fin cfg0.N, t.val = (i 0).val := ⟨⟨(i 0).val, lt_of_lt_of_eq h0 N_0.symm⟩, rfl⟩
  obtain ⟨-, -, -, -, -, -, -, -, -, -, e0, e1, e2⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 1 ≤ (i 2).val ∧ (i 2).val < win0_5.index t (2 : Fin 3) * 1 + 1; omega

/-- THE OUTPUT ARRAY after the run holds the sixteen values. -/
theorem final (c : Dev nD) : (dats m 0 c).arrAt 5 cfg0.N = G m c :=
  (dats m 0 c).arrAt_eq_of_cover 5 (G m c) (fun t _ => flushed_eq m c t) cover

/-! ## The reshape after the region, and the run -/

/-- The result vector: entry `b` is sample `b`'s value. -/
def out (c : Dev nD) : S16.Idx → EReal := fun i => sample m c ⟨(i 0).val, (i 0).isLt⟩

theorem result_eq (c : Dev nD) : (Pipeline.afterTail₀ cfgs (dats m) 0 (V0 m) [hostOps1] c main_v19 : S16.Idx → EReal) = out m c := by
  have e : (Pipeline.withArrays spec0 c (V0 m c) (fun w => (dats m 0 c).arrAt w cfg0.N) (Proc.devRef .tc main_v18) : S16x1x1.Idx → EReal) = G m c :=
    (Pipeline.withArrays_arr spec0 launch0.win.arr_inj c (V0 m c) (fun w => (dats m 0 c).arrAt w cfg0.N) 5).trans (final m c)
  unfold Pipeline.afterTail₀
  show StableHlo.after hostOps1 _ (Proc.devRef .tc main_v19) = _
  after_results
  funext i
  show shapeCast S16 (Pipeline.withArrays spec0 c (V0 m c) (fun w => (dats m 0 c).arrAt w cfg0.N) (Proc.devRef .tc main_v18) : S16x1x1.Idx → EReal)
    shapeCasts_S16x1x1_S16 i = _
  rw [e]
  exact shapeCast_apply (G m c) shapeCasts_S16x1x1_S16 i (ix3 (⟨(i 0).val, (i 0).isLt⟩ : Fin 16) (0 : Fin 1) (0 : Fin 1))
    (by rw [Shape.rowMajor_val_three, Shape.rowMajor_val_one]; show ((i 0).val * 1 + 0) * 1 + 0 = (i 0).val; omega)

/-- THE KERNEL'S RUN, READ: every weakly fair execution ends with the result vector at the sixteen values and the
    arguments as launched. -/
theorem run : θ_run defs (onTc (τ := τ) (main (F := Ideal))) ⟨m, fun _ => 0, ρ⟩ fun r => ∀ c : Dev nD,
      r.2.mem ((c.tc : Thread nD τ).loc main_v19) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefSide.lean ====
/-
  The reference, read at an index: entry `b` of its result is the value of sample `b`.

  Token `l` of sample `b` contributes `∑ h, max (∑ d, e[b, l, d] · W1[d, h] + b1[h], 0) · W2[h, 0] + b2`; the
  reference sums the 4096 contributions from zero. With `b2` a real number the bias comes out of the sum as
  `4096 · b2`, and 4096 is the float the kernel multiplies by.
-/
import proofs.«114112_g33174327394913_cont_8to1_b_594_5_alg».proof.Proof.Gen.ReferenceIdeal.Read
import proofs.«114112_g33174327394913_cont_8to1_b_594_5_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.CriticSpec

/-- One token's contribution, before the sum over the tokens. -/
theorem token_apply (x0 : FVec Ideal S16x4096x64 .f32) (x1 : FVec Ideal S64x32 .f32) (x2 : FVec Ideal S32 .f32)
    (x3 : FVec Ideal S32x1 .f32) (x4 : FVec Ideal S1 .f32) (b : Fin 16) (l : Fin 4096) :
    val_main_v8 (F := Ideal) x0 x1 x2 x3 x4 (ix3 b l (0 : Fin 1))
      = (∑ h : Fin 32, max ((∑ d : Fin 64, x0 (ix3 b l d) * x1 (ix2 d h)) + x2 (ix1 h)) 0 * x3 (ix2 h (0 : Fin 1)))
        + x4 (ix1 (0 : Fin 1)) := by
  rw [val_main_v8_apply, val_main_v5_apply, val_main_v7_apply, val_main_v6_apply]
  refine congrArg₂ (· + ·) (Finset.sum_congr rfl fun h _ => ?_) ?_
  · have el : lidx_main_v5 (ix3 b l (0 : Fin 1)) h = ix3 b l h := funext fun a => by
      match a with | ⟨0, _⟩ => rfl | ⟨1, _⟩ => rfl | ⟨2, _⟩ => rfl
    have er : ridx_main_v5 (ix3 b l (0 : Fin 1)) h = ix2 h (0 : Fin 1) := funext fun a => by
      match a with | ⟨0, _⟩ => rfl | ⟨1, _⟩ => rfl
    rw [el, er, val_main_v4_apply, val_main_v3_apply, val_main_v0_apply, val_main_v2_apply, val_main_v1_apply,
      val_main_call0_v0_apply, val_main_call0_cst_apply]
    have e2 : idx_main_v1 (idx_main_v2 (ix3 b l h)) = ix1 h := funext fun a => by
      match a with | ⟨0, _⟩ => rfl
    rw [e2]
    refine congrArg₂ (· * ·) (congrArg₂ max (congrArg₂ (· + ·) (Finset.sum_congr rfl fun d _ => ?_) rfl) ?_) rfl
    · have e0 : lidx_main_v0 (ix3 b l h) d = ix3 b l d := funext fun a => by
        match a with | ⟨0, _⟩ => rfl | ⟨1, _⟩ => rfl | ⟨2, _⟩ => rfl
      have e1 : ridx_main_v0 (ix3 b l h) d = ix2 d h := funext fun a => by
        match a with | ⟨0, _⟩ => rfl | ⟨1, _⟩ => rfl
      rw [e0, e1]
    · exact Ideal.ofBits_zero_f32
  · exact congrArg x4 (funext fun a => by match a with | ⟨0, _⟩ => rfl)

/-- Entry `b` of the reference's result, for a real second bias, is the value of sample `b`. -/
theorem result_apply (x0 : FVec Ideal S16x4096x64 .f32) (x1 : FVec Ideal S64x32 .f32) (x2 : FVec Ideal S32 .f32)
    (x3 : FVec Ideal S32x1 .f32) (x4 : FVec Ideal S1 .f32) (r : ℝ) (h4 : x4 (ix1 (0 : Fin 1)) = (r : EReal)) (i : S16.Idx) :
    val_main_v10 (F := Ideal) x0 x1 x2 x3 x4 i = value x0 x1 x2 x3 x4 ⟨(i 0).val, (i 0).isLt⟩ := by
  rw [val_main_v10_apply, val_main_v9_apply, val_main_cst_apply]
  have e9 : ∀ l : Fin 4096, idx_main_v9 (idx_main_v10 i) l = ix3 (⟨(i 0).val, (i 0).isLt⟩ : Fin 16) l (0 : Fin 1) := fun l => funext fun a => by
    match a with
    | ⟨0, _⟩ => exact Fin.ext (Nat.div_one _)
    | ⟨1, _⟩ => rfl
    | ⟨2, _⟩ => rfl
  simp only [e9, token_apply, h4]
  rw [sum_add_const]
  show Ideal.ofBits .f32 0x00000000#32 + _ = _
  rw [Ideal.ofBits_zero_f32, zero_add]
  unfold value
  rw [ofBits_4096, h4]

end Cert.ReferenceIdeal.RefValue

end
-- ==== Proof.Finite.lean ====
/-
  The one thing the proof asks of the precondition: the second bias is a real number.

  `finite_inputs` is the conjunction of five `jnp.all(|x| < +inf)`; its last conjunct, read at the one entry of `b2`,
  says `max b2 (-b2) < ⊤` on the extended reals, which excludes both infinities.
-/
import proofs.«114112_g33174327394913_cont_8to1_b_594_5_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic Idealize.ShloMosaic.ValueIdx

instance : Subsingleton S_.Idx := ⟨fun a b => funext fun d => d.elim0⟩

/-- The pattern `0x7F800000` is `+∞`. -/
theorem ofBits_inf : Ideal.ofBits .f32 0x7F800000#32 = ⊤ := by simp [Ideal.ofBits, Ideal.ieee]

/-- Under the precondition the one entry of the second bias is a real number. -/
theorem bias2_real (a0 : FVec Ideal S16x4096x64 .f32) (a1 : FVec Ideal S64x32 .f32) (a2 : FVec Ideal S32 .f32)
    (a3 : FVec Ideal S32x1 .f32) (a4 : FVec Ideal S1 .f32) (h : fn (F := Ideal) a0 a1 a2 a3 a4 = fun _ => 1#1) :
    ∃ r : ℝ, a4 (ix1 (0 : Fin 1)) = (r : EReal) := by
  have h0 := congrFun h ix0
  dsimp only [fn, fn_part1] at h0
  have h1 := (IntOp.andi_eq_one.1 h0).2
  have h2 := Host.reduce_andi_all _ _ _ _ _ h1 (ix1 (0 : Fin 1))
  have h3 : Ideal.cmp .olt (max (a4 (ix1 (0 : Fin 1))) (-(a4 (ix1 (0 : Fin 1))))) (Ideal.ofBits .f32 0x7F800000#32) = 1#1 := h2
  rw [ofBits_inf] at h3
  generalize a4 (ix1 (0 : Fin 1)) = x at h3 ⊢
  induction x using EReal.rec with
  | bot => simp [Ideal.cmp] at h3
  | coe r => exact ⟨r, rfl⟩
  | top => simp [Ideal.cmp] at h3

end Cert.Pre_finite_inputs.Finite

end
-- ==== Proof.lean ====
/-
  A fused critic head against its jnp reference, equal over the extended reals.

  For each of 16 samples the reference computes, over the sample's 4096 tokens `l` and 32 hidden units `h`,

      value[b] = ∑ l, ( ∑ h, max (∑ d, embs[b, l, d] · W1[d, h] + b1[h], 0) · W2[h, 0]  +  b2 ).

  The kernel packs four consecutive tokens into one row of 256 numbers and multiplies by the block-diagonal
  weight `kron(I₄, W1)`, so that one grid point turns a sample's [1024, 256] block into one number: the sum over
  rows and lanes of `max (x · Wbig + b1big, 0) · w2big`, plus `4096 · b2`.

  * Row `r`, column `64p + d` of the packed block is token `4r + p`, feature `d`; row `64p + d`, lane `32q + h`
    of the packed weight is `δ(p, q) · W1[d, h]`; the tiled vectors hold `b1[h]` and `W2[h, 0]` at lane `32q + h`
    (Proof/Entry.lean: the host operations before the kernel, read at an index).
  * The packed product keeps only the run `p = q` (a product with zero is zero on the extended reals, at the
    infinities too), and the double sum over rows and lanes re-indexes to the sum over tokens and hidden units
    (Proof/Spec.lean); the body's number is that double sum plus `4096 · b2` (Proof/Body.lean), so point `t`
    writes sample `t`'s value, the sixteen one-entry blocks tile the output, and the reshape after the kernel hands
    the sixteen values on (Proof/Result.lean).
  * The reference adds `b2` to every token before it sums (Proof/RefSide.lean); taking it out of the sum as
    `4096 · b2` is the one step that needs a finite value, and the precondition gives `b2` real
    (Proof/Finite.lean). No other entry of the inputs needs to be finite.

  The three frames are the generated ones (the reference's its generated run with the result dropped); the
  idealization rewrote nothing, so `preserves` is trivial.
-/
import proofs.«114112_g33174327394913_cont_8to1_b_594_5_alg».proof.Defs
import proofs.«114112_g33174327394913_cont_8to1_b_594_5_alg».proof.Proof.Gen.Kernel
import proofs.«114112_g33174327394913_cont_8to1_b_594_5_alg».proof.Proof.Gen.Kernel.Frame
import proofs.«114112_g33174327394913_cont_8to1_b_594_5_alg».proof.Proof.Gen.KernelIdeal
import proofs.«114112_g33174327394913_cont_8to1_b_594_5_alg».proof.Proof.Gen.KernelIdeal.Frame
import proofs.«114112_g33174327394913_cont_8to1_b_594_5_alg».proof.Proof.Gen.ReferenceIdeal
import proofs.«114112_g33174327394913_cont_8to1_b_594_5_alg».proof.Proof.Gen.Pre_finite_inputs
import proofs.«114112_g33174327394913_cont_8to1_b_594_5_alg».proof.Proof.Gen.ReferenceIdeal.Run
import proofs.«114112_g33174327394913_cont_8to1_b_594_5_alg».proof.Proof.Gen.ReferenceIdeal.Read
import proofs.«114112_g33174327394913_cont_8to1_b_594_5_alg».proof.Proof.Result
import proofs.«114112_g33174327394913_cont_8to1_b_594_5_alg».proof.Proof.RefSide
import proofs.«114112_g33174327394913_cont_8to1_b_594_5_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the vector of the sixteen sample values: the kernel by its run read back, the reference
    by its run read at an index, the second bias real by the precondition. -/
theorem algebraic : Cert.algebraic_KernelIdeal_ReferenceIdeal := by
  intro m ρ m' ρ' hpre hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨r, hr⟩ := Cert.Pre_finite_inputs.Finite.bias2_real _ _ _ _ _ (hpre c)
  rw [(hagree c).1, (hagree c).2.1, (hagree c).2.2.1, (hagree c).2.2.2.1, (hagree c).2.2.2.2]
  exact (Cert.ReferenceIdeal.Read.val_main_v10_eq _ _ _ _ _).trans
    (funext fun i => Cert.ReferenceIdeal.RefValue.result_apply _ _ _ _ _ r hr i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
